-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x2 : Shape := ⟨2, ![8192, 2]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : IVec S8192x2 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S8192x2 : Shape := ⟨2, ![8192, 2]⟩
abbrev S16384 : Shape := ⟨1, ![16384]⟩
abbrev S_ : Shape := ⟨0, ![]⟩
abbrev S8192x1x4096 : Shape := ⟨3, ![8192, 1, 4096]⟩
abbrev S16384x1x4096 : Shape := ⟨3, ![16384, 1, 4096]⟩
abbrev S1x1x4096 : Shape := ⟨3, ![1, 1, 4096]⟩
abbrev S1 : Shape := ⟨1, ![1]⟩
abbrev S16384x4096 : Shape := ⟨2, ![16384, 4096]⟩

abbrev nBuf : Space → Nat
  | .hbm => 34
  | .vmem => 4
  | .smem => 1
  | _ => 0

abbrev bufTy : (tb : Table) → Fin (tcTables nBuf tb) → BufTy
  | .hbm, ⟨0, _⟩ => ⟨S8192x4096, .f32⟩
  | .hbm, ⟨1, _⟩ => ⟨S8192x2, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S_, .i32⟩
  | .hbm, ⟨30, _⟩ => ⟨S16384, .i32⟩
  | .hbm, ⟨31, _⟩ => ⟨S8192x1x4096, .f32⟩
  | .hbm, ⟨32, _⟩ => ⟨S16384x1x4096, .f32⟩
  | .hbm, ⟨33, _⟩ => ⟨S16384x4096, .f32⟩
  | .local _ .vmem, ⟨0, _⟩ => ⟨S1x1x4096, .f32⟩
  | .local _ .vmem, ⟨1, _⟩ => ⟨S1x1x4096, .f32⟩
  | .local _ .vmem, ⟨2, _⟩ => ⟨S1x1x4096, .f32⟩
  | .local _ .vmem, ⟨3, _⟩ => ⟨S1x1x4096, .f32⟩
  | .local _ .smem, ⟨0, _⟩ => ⟨S16384, .i32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_call1_v5 : Ref sig .tc := ⟨.hbm, 12, rfl⟩
abbrev main_call1_v6 : Ref sig .tc := ⟨.hbm, 13, rfl⟩
abbrev main_call1_v7 : Ref sig .tc := ⟨.hbm, 14, rfl⟩
abbrev main_call1_v8 : Ref sig .tc := ⟨.hbm, 15, rfl⟩
abbrev main_call1_c : Ref sig .tc := ⟨.hbm, 16, rfl⟩
abbrev main_call1_v9 : Ref sig .tc := ⟨.hbm, 17, rfl⟩
abbrev main_call1_v10 : Ref sig .tc := ⟨.hbm, 18, rfl⟩
abbrev main_call1_v11 : Ref sig .tc := ⟨.hbm, 19, rfl⟩
abbrev main_call1_c_0 : Ref sig .tc := ⟨.hbm, 20, rfl⟩
abbrev main_call1_v12 : Ref sig .tc := ⟨.hbm, 21, rfl⟩
abbrev main_call1_v13 : Ref sig .tc := ⟨.hbm, 22, rfl⟩
abbrev main_v2 : Ref sig .tc := ⟨.hbm, 23, rfl⟩
abbrev main_c_0 : Ref sig .tc := ⟨.hbm, 24, rfl⟩
abbrev main_c_1 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16384], ![false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S16384.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16384) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8192x2_S16384 : S8192x2.ShapeCasts S16384
  bcast_S_S16384 : S_.BroadcastsInDim S16384 (![] : Fin 0 → Fin S16384.rank)
  shapeCasts_S8192x4096_S8192x1x4096 : S8192x4096.ShapeCasts S8192x1x4096
  numel1_S1 : S1.numel = 1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x1x4096 : S1x1x4096.ShapeCasts S1x1x4096
  shapeCasts_S16384x1x4096_S16384x4096 : S16384x1x4096.ShapeCasts S16384x4096
  hrank0 : 0 < grid0.rank
  k0_off1_inb : ∀ i : grid0.Coords, ∀ a, (k0_off1 i) a + S1.size a ≤ S16384.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S16384x1x4096.size a
  hwx0_1 : ∀ i : grid0.Coords, EltTy.bits .f32 = 32 ∨ (Rect.block (s := S16384x1x4096) S1x1x4096.size (cc0_transform_1 i) (hinb0_1 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2

abbrev spec0_0 : Pipeline.WinSpec sig grid0.rank :=
  Pipeline.WinSpec.ofSpec (Memref.whole main_v4) S1x1x4096.size reads0_0 false false 2 stage0_0 sem0_0 nbuf0_0 hstage0_0

abbrev spec0_1 : Pipeline.WinSpec sig grid0.rank :=
  Pipeline.WinSpec.ofSpec (Memref.whole main_v5) S1x1x4096.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 k0_off1_inb numel1_S1 pf | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | ⟨_ + 2, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x4096.size a ≤ S8192x1x4096.size a), EltTy.bits .f32 = 32 ∨ (Rect.block (s := S8192x1x4096) S1x1x4096.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S8192x4096 : Shape := ⟨2, ![8192, 4096]⟩
abbrev S8192x2 : Shape := ⟨2, ![8192, 2]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x4096 : Shape := ⟨2, ![16384, 4096]⟩

abbrev nBuf : Space → Nat
  | .hbm => 47
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2, .i32⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S_, .i32⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S16384, .i32⟩
  | .hbm, ⟨15, _⟩ => ⟨S16384, .i32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S1, .i32⟩
  | .hbm, ⟨33, _⟩ => ⟨S_, .i32⟩
  | .hbm, ⟨34, _⟩ => ⟨S16384x1, .i32⟩
  | .hbm, ⟨35, _⟩ => ⟨S16384x1, .i1⟩
  | .hbm, ⟨36, _⟩ => ⟨S1x1, .i32⟩
  | .hbm, ⟨37, _⟩ => ⟨S16384x1, .i32⟩
  | .hbm, ⟨38, _⟩ => ⟨S16384x1, .i1⟩
  | .hbm, ⟨39, _⟩ => ⟨S16384x1, .i1⟩
  | .hbm, ⟨40, _⟩ => ⟨S_, .i1⟩
  | .hbm, ⟨41, _⟩ => ⟨S16384, .i1⟩
  | .hbm, ⟨42, _⟩ => ⟨S16384x4096, .f32⟩
  | .hbm, ⟨43, _⟩ => ⟨S16384x4096, .i1⟩
  | .hbm, ⟨44, _⟩ => ⟨S_, .f32⟩
  | .hbm, ⟨45, _⟩ => ⟨S16384x4096, .f32⟩
  | .hbm, ⟨46, _⟩ => ⟨S16384x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_call1_v5 : Ref sig .tc := ⟨.hbm, 12, rfl⟩
abbrev main_call1_v6 : Ref sig .tc := ⟨.hbm, 13, rfl⟩
abbrev main_call1_v7 : Ref sig .tc := ⟨.hbm, 14, rfl⟩
abbrev main_call1_v8 : Ref sig .tc := ⟨.hbm, 15, rfl⟩
abbrev main_call1_c : Ref sig .tc := ⟨.hbm, 16, rfl⟩
abbrev main_call1_v9 : Ref sig .tc := ⟨.hbm, 17, rfl⟩
abbrev main_call1_v10 : Ref sig .tc := ⟨.hbm, 18, rfl⟩
abbrev main_call1_v11 : Ref sig .tc := ⟨.hbm, 19, rfl⟩
abbrev main_call1_c_0 : Ref sig .tc := ⟨.hbm, 20, rfl⟩
abbrev main_call1_v12 : Ref sig .tc := ⟨.hbm, 21, rfl⟩
abbrev main_call1_v13 : Ref sig .tc := ⟨.hbm, 22, rfl⟩
abbrev main_v2 : Ref sig .tc := ⟨.hbm, 23, rfl⟩
abbrev main_call2_c : Ref sig .tc := ⟨.hbm, 24, rfl⟩
abbrev main_call2_v0 : Ref sig .tc := ⟨.hbm, 25, rfl⟩
abbrev main_call2_v1 : Ref sig .tc := ⟨.hbm, 26, rfl⟩
abbrev main_call2_c_0 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_c_1 : Ref sig .tc := ⟨.hbm, 32, rfl⟩
abbrev main_call2_c_2 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_c_3 : Ref sig .tc := ⟨.hbm, 40, rfl⟩
abbrev main_call2_v12 : Ref sig .tc := ⟨.hbm, 41, rfl⟩
abbrev main_call2_v13 : Ref sig .tc := ⟨.hbm, 42, rfl⟩
abbrev main_call2_v14 : Ref sig .tc := ⟨.hbm, 43, rfl⟩
abbrev main_call2_cst : Ref sig .tc := ⟨.hbm, 44, rfl⟩
abbrev main_call2_v15 : Ref sig .tc := ⟨.hbm, 45, rfl⟩
abbrev main_v3 : Ref sig .tc := ⟨.hbm, 46, rfl⟩

abbrev nD : Nat := 1
abbrev τ : Topo := Topo.v7x

variable {F : FTy → Type} [FloatOps F]

class Facts₀ : Prop where
  shapeCasts_S8192x2_S16384 : S8192x2.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x4096_0 : S16384.BroadcastsInDim S16384x4096 (![0] : Fin 1 → Fin S16384x4096.rank)
  bcast_S_S16384x4096 : S_.BroadcastsInDim S16384x4096 (![] : Fin 0 → Fin S16384x4096.rank)
  gather_S8192x4096_S16384x1_S16384x4096_1_0_n_n_0_1_14096_wf : GatherDims.WF S8192x4096 S16384x1 S16384x4096 [1] [0] [] [0] [] 1 ![1, 4096]

variable [Facts₀]

def comparator_i32_i32_d0 : BitVec 32 × BitVec 32 → BitVec 32 × BitVec 32 → BitVec 1 :=
  fun l r =>
    let v2 := IntOp.cmpi .slt l.1 r.1
    v2
def gather_S8192x4096_S16384x1_S16384x4096_1_0_n_n_0_1_14096 : GatherDims S8192x4096 S16384x1 S16384x4096 where
  offsetDims := [1]
  collapsedSliceDims := [0]
  operandBatchingDims := []
  startIndicesBatchingDims := []
  startIndexMap := [0]
  indexVectorDim := 1
  sliceSizes := ![1, 4096]
  wf := gather_S8192x4096_S16384x1_S16384x4096_1_0_n_n_0_1_14096_wf

class Facts : Prop extends Facts₀ where

variable [Facts]
-- ==== Proof.RouteSpec.lean ====
/-
  What the dispatch computes, stated once for both programs.

  The expert ids of the 8192 tokens' two replicas are flattened to 16384 words and sorted stably by the id alone,
  an iota carried along: slot `p` of the sorted iota is the number of the replica that lands in slot `p`
  (`order`). Replica `r` belongs to token `r / 2`, so slot `p` of the result holds row `order[p] / 2` of the
  hidden states (`srcRow`, `routed`). The carried iota only ever holds position numbers (whatever the ids are, and
  whatever the comparator), so `order[p] < 16384` and the source row is below 8192: the kernel's clamp of the row
  into [0, 8191], and jnp.take's wrap of negative rows and its fill of out-of-range ones, never act.
-/
import Idealize.ShloMosaic.PureOps
import Idealize.ShloMosaic.Lib.ValueIdx

noncomputable section

namespace Cert.Route

open Idealize.ShloMosaic Idealize.ShloMosaic.ValueIdx

abbrev S16384 : Shape := ⟨1, ![16384]⟩
abbrev S8192x4096 : Shape := ⟨2, ![8192, 4096]⟩
abbrev S16384x4096 : Shape := ⟨2, ![16384, 4096]⟩

/-- The order the replicas are sorted by: the expert id alone, signed; the carried position is not compared. -/
def keyLt : BitVec 32 × BitVec 32 → BitVec 32 × BitVec 32 → BitVec 1 :=
  fun l r => IntOp.cmpi .slt l.1 r.1

/-- Slot ↦ replica: the stable argsort of the flattened expert ids (the sorted iota). -/
def order (ids : IVec S16384 32) : IVec S16384 32 :=
  (Host.sort2 S16384 0 keyLt ids (iotaInDim S16384 32 0)).2

/-- The token whose row slot `p` receives: replica `order[p]` is a replica of token `order[p] / 2`. (The
    reduction modulo 8192 never acts; it makes the row a `Fin 8192` without a side proof.) -/
def srcRow (ids : IVec S16384 32) (p : Fin 16384) : Fin 8192 :=
  ⟨(order ids (ix1 p)).toNat / 2 % 8192, Nat.mod_lt _ (by decide)⟩

/-- The dispatched rows: slot `p`, column `q` holds the hidden state of token `srcRow p` at column `q`. -/
def routed {α : Type} (x : S8192x4096.Idx → α) (ids : IVec S16384 32) : S16384x4096.Idx → α :=
  fun i => x (ix2 (srcRow ids ⟨(i 0).val, idx2_lt0 i⟩) ⟨(i 1).val, idx2_lt1 i⟩)

end Cert.Route

end
-- ==== Proof.IndexWords.lean ====
/-
  Facts about 32-bit words that the index arithmetic of the dispatch needs, each at one word.
-/
import Idealize.ShloMosaic.PureOps
import Idealize.ShloMosaic.Lib.ValueIdx
import Idealize.ShloMosaic.Lib.SortFacts

namespace Cert.Route

open Idealize.ShloMosaic Idealize.ShloMosaic.ValueIdx

/-- A number below 16384 is its own 32-bit word's unsigned reading. -/
private theorem toNat_ofNat_small (k : Nat) (hk : k < 16384) : (BitVec.ofNat 32 k).toNat = k := by
  rw [BitVec.toNat_ofNat]; exact Nat.mod_eq_of_lt (by omega)

/-- Such a word has a clear sign bit. -/
private theorem msb_ofNat_small (k : Nat) (hk : k < 16384) : (BitVec.ofNat 32 k).msb = false := by
  rw [BitVec.msb_eq_false_iff_two_mul_lt, toNat_ofNat_small k hk]; omega

/-- Its signed reading is the number as well. -/
private theorem toInt_ofNat_small (k : Nat) (hk : k < 16384) : (BitVec.ofNat 32 k).toInt = (k : Int) := by
  rw [BitVec.toInt_eq_toNat_of_msb (msb_ofNat_small k hk), toNat_ofNat_small k hk]

/-- The iota a two-operand stable sort of 16384 positions carries holds, at every position, the number of some
    position: the sort reads both operands through one self-map of the positions, whatever the keys and the
    comparator. -/
theorem sort2_iota_snd {α : Type} (cmp : α × BitVec 32 → α × BitVec 32 → BitVec 1)
    (keys : (⟨1, ![16384]⟩ : Shape).Idx → α) (j : (⟨1, ![16384]⟩ : Shape).Idx) :
    ∃ k : Nat, k < 16384 ∧
      (Host.sort2 ⟨1, ![16384]⟩ 0 cmp keys (iotaInDim ⟨1, ![16384]⟩ 32 0)).2 j = BitVec.ofNat 32 k := by
  unfold Host.sort2
  rw [dif_pos (by decide : 0 < (⟨1, ![16384]⟩ : Shape).rank)]
  simp only [iotaInDim]
  refine ⟨_, ?_, rfl⟩
  exact Fin.isLt _

/-- The word `stablehlo.sign` gives: 0, -1 or 1 by the sign of the two's-complement integer. -/
def sgn (w : BitVec 32) : BitVec 32 := if w = 0 then 0 else if w.msb then -1 else 1

/-- `stablehlo.sign` of an integer tensor at an index is `sgn` of the element. -/
theorem signi_apply {s : Shape} (x : IVec s 32) (i : s.Idx) : signi x i = sgn (x i) := rfl

/-- jnp's floor division by two, as it is lowered — the quotient rounded toward zero, less one where the operands'
    signs differ and the remainder is not zero — of a word below 16384 is the halved number: the signs differ
    only at zero, where the remainder is zero. -/
theorem floordiv_two (k : Nat) (hk : k < 16384) :
    Scalar.select
        (IntOp.andi (IntOp.cmpi .ne (sgn (BitVec.ofNat 32 k)) (sgn 2#32))
          (IntOp.cmpi .ne (IntOp.remsi .host (BitVec.ofNat 32 k) 2#32) 0#32))
        (IntOp.subi (IntOp.divsi .host (BitVec.ofNat 32 k) 2#32) 1#32)
        (IntOp.divsi .host (BitVec.ofNat 32 k) 2#32)
      = BitVec.ofNat 32 (k / 2) := by
  have hn := toNat_ofNat_small k hk
  have hm := msb_ofNat_small k hk
  have h2m : (2#32 : BitVec 32).msb = false := by decide
  have hc : ¬ IntOp.SDivCorner (BitVec.ofNat 32 k) 2#32 := by
    unfold IntOp.SDivCorner
    have a : ¬ (2#32 : BitVec 32) = 0 := by decide
    have b : ¬ (2#32 : BitVec 32) = -1 := by decide
    tauto
  -- the quotient and the remainder, as numbers
  have hdiv : IntOp.divsi .host (BitVec.ofNat 32 k) 2#32 = BitVec.ofNat 32 (k / 2) := by
    unfold IntOp.divsi
    rw [if_neg hc]
    apply BitVec.eq_of_toNat_eq
    rw [BitVec.sdiv_eq, hm, h2m]
    simp only [BitVec.udiv_eq, BitVec.toNat_udiv, hn]
    rw [toNat_ofNat_small (k / 2) (by omega)]
    rfl
  have hrem : IntOp.remsi .host (BitVec.ofNat 32 k) 2#32 = BitVec.ofNat 32 (k % 2) := by
    unfold IntOp.remsi
    rw [if_neg hc]
    apply BitVec.eq_of_toNat_eq
    rw [BitVec.srem_eq, hm, h2m]
    simp only [BitVec.umod_eq, BitVec.toNat_umod, hn]
    rw [toNat_ofNat_small (k % 2) (by omega)]
    rfl
  have hs2 : sgn 2#32 = 1#32 := by decide
  rw [hdiv, hrem, hs2]
  by_cases hk0 : k = 0
  · subst hk0
    decide
  · -- a positive word has sign 1: the first flag is clear
    have hne : ¬ BitVec.ofNat 32 k = 0 := by
      intro h
      have := congrArg BitVec.toNat h
      rw [hn] at this
      exact hk0 this
    have hsg : sgn (BitVec.ofNat 32 k) = 1#32 := by
      unfold sgn
      rw [if_neg hne, hm]
      rfl
    rw [hsg]
    have hf : IntOp.cmpi .ne (1#32 : BitVec 32) 1#32 = 0#1 := by decide
    rw [hf]
    have ha : ∀ c : BitVec 1, IntOp.andi 0#1 c = 0#1 := by
      intro c; unfold IntOp.andi; exact BitVec.zero_and
    rw [ha]
    rfl

/-- Clamping a word below 8192 into [0, 8191] (the maximum with 0, then the minimum with 8191, signed) leaves it. -/
theorem clip_id (n : Nat) (hn : n < 8192) :
    IntOp.minsi 8191#32 (IntOp.maxsi 0#32 (BitVec.ofNat 32 n)) = BitVec.ofNat 32 n := by
  have hi := toInt_ofNat_small n (by omega)
  have h0 : (0#32 : BitVec 32).toInt = 0 := by decide
  have h1 : (8191#32 : BitVec 32).toInt = 8191 := by decide
  -- the maximum with 0
  have hmax : IntOp.maxsi 0#32 (BitVec.ofNat 32 n) = BitVec.ofNat 32 n := by
    unfold IntOp.maxsi
    by_cases hs : (BitVec.ofNat 32 n).slt 0#32 = true
    · rw [BitVec.slt, hi, h0] at hs
      have := of_decide_eq_true hs
      omega
    · rw [if_neg hs]
  rw [hmax]
  unfold IntOp.minsi
  by_cases hs : (8191#32 : BitVec 32).slt (BitVec.ofNat 32 n) = true
  · rw [BitVec.slt, hi, h1] at hs
    have := of_decide_eq_true hs
    omega
  · rw [if_neg hs]

/-- A word below 8192 is not negative, -/
theorem slt_zero (n : Nat) (hn : n < 8192) : IntOp.cmpi .slt (BitVec.ofNat 32 n) 0#32 = 0#1 := by
  have h : (BitVec.ofNat 32 n).slt 0#32 = false := by
    rw [BitVec.slt, toInt_ofNat_small n (by omega)]
    have h0 : (0#32 : BitVec 32).toInt = 0 := by decide
    rw [h0]; exact decide_eq_false (by omega)
  show BitVec.ofBool ((BitVec.ofNat 32 n).slt 0#32) = 0#1
  rw [h]; rfl
/-- is at least 0 -/
theorem sge_zero (n : Nat) (hn : n < 8192) : IntOp.cmpi .sge (BitVec.ofNat 32 n) 0#32 = 1#1 := by
  have h : (0#32 : BitVec 32).sle (BitVec.ofNat 32 n) = true := by
    rw [BitVec.sle, toInt_ofNat_small n (by omega)]
    have h0 : (0#32 : BitVec 32).toInt = 0 := by decide
    rw [h0]; exact decide_eq_true (by omega)
  show BitVec.ofBool ((0#32 : BitVec 32).sle (BitVec.ofNat 32 n)) = 1#1
  rw [h]; rfl
/-- and at most 8191, signed; -/
theorem sle_last (n : Nat) (hn : n < 8192) : IntOp.cmpi .sle (BitVec.ofNat 32 n) 8191#32 = 1#1 := by
  have h : (BitVec.ofNat 32 n).sle 8191#32 = true := by
    rw [BitVec.sle, toInt_ofNat_small n (by omega)]
    have h0 : (8191#32 : BitVec 32).toInt = 8191 := by decide
    rw [h0]; exact decide_eq_true (by omega)
  show BitVec.ofBool ((BitVec.ofNat 32 n).sle 8191#32) = 1#1
  rw [h]; rfl
/-- its signed and its unsigned readings are the number itself. -/
theorem toInt_toNat_ofNat (n : Nat) (hn : n < 8192) : (BitVec.ofNat 32 n).toInt.toNat = n := by
  rw [toInt_ofNat_small n (by omega)]; exact Int.toNat_natCast n
theorem toNat_ofNat_lt (n : Nat) (hn : n < 8192) : (BitVec.ofNat 32 n).toNat = n :=
  toNat_ofNat_small n (by omega)

end Cert.Route
-- ==== Proof.RouteChain.lean ====
/-
  The index chain of the dispatch, on the whole vector of 16384 slots, and what it holds at one slot.

  Both programs halve the sorted iota with jnp's floor division (`halfFloor`); the kernel then clamps the rows into
  [0, 8191] (`clipRows`) and hands the result to its index map as a table (`tokens`). At slot `p` the sorted iota
  holds a position number `k < 16384`, the floor division leaves `k / 2 < 8192`, and the clamp leaves that: the
  table's word at `p` is the source row `srcRow p`. The clamp alone already bounds every word of the table by 8191,
  whatever it is applied to.
-/
import proofs.«415783_j54563264529075_2_alg».proof.Proof.RouteSpec
import proofs.«415783_j54563264529075_2_alg».proof.Proof.IndexWords

noncomputable section

namespace Cert.Route

open Idealize.ShloMosaic Idealize.ShloMosaic.ValueIdx

abbrev S_ : Shape := ⟨0, ![]⟩

theorem bcast_S_S16384 : S_.BroadcastsInDim S16384 (![] : Fin 0 → Fin S16384.rank) := by decide

/-- jnp's floor division of every slot's word by two: the quotient rounded toward zero, less one where the signs of
    dividend and divisor differ and the remainder is not zero. -/
def halfFloor (o : IVec S16384 32) : IVec S16384 32 :=
  select
    (andi
      (cmpi .ne (signi o) (broadcastInDim S16384 ![] bcast_S_S16384 (signi (id (constantI S_ 32 2#32)))))
      (cmpi .ne (Host.remsi o (broadcastInDim S16384 ![] bcast_S_S16384 (id (constantI S_ 32 2#32))))
        (broadcastInDim S16384 ![] bcast_S_S16384 (constantI S_ 32 0#32))))
    (subi (Host.divsi o (broadcastInDim S16384 ![] bcast_S_S16384 (id (constantI S_ 32 2#32))))
      (broadcastInDim S16384 ![] bcast_S_S16384 (constantI S_ 32 1#32)))
    (Host.divsi o (broadcastInDim S16384 ![] bcast_S_S16384 (id (constantI S_ 32 2#32))))

/-- The clamp of every slot's row into [0, 8191]: the maximum with 0, then the minimum with 8191, signed. -/
def clipRows (q : IVec S16384 32) : IVec S16384 32 :=
  minsi (broadcastInDim S16384 ![] bcast_S_S16384 (id (constantI S_ 32 8191#32)))
    (maxsi (broadcastInDim S16384 ![] bcast_S_S16384 (id (constantI S_ 32 0#32))) q)

/-- The table the kernel's index map reads: slot ↦ source row. -/
def tokens (ids : IVec S16384 32) : IVec S16384 32 := clipRows (halfFloor (order ids))

/-- At every slot the sorted iota holds a position number. -/
theorem order_word (ids : IVec S16384 32) (j : S16384.Idx) :
    ∃ k : Nat, k < 16384 ∧ order ids j = BitVec.ofNat 32 k :=
  sort2_iota_snd keyLt ids j

/-- The floor division at a slot whose word is a number below 16384 leaves the halved number. -/
theorem halfFloor_apply (o : IVec S16384 32) (j : S16384.Idx) (k : Nat) (hk : k < 16384)
    (e : o j = BitVec.ofNat 32 k) : halfFloor o j = BitVec.ofNat 32 (k / 2) := by
  unfold halfFloor
  simp only [select, andi, cmpi, subi, Host.divsi, Host.remsi, broadcastInDim, constantI, id, signi_apply, e]
  exact floordiv_two k hk

/-- The clamp at a slot is the clamp of the slot's word. -/
theorem clipRows_apply (q : IVec S16384 32) (j : S16384.Idx) :
    clipRows q j = IntOp.minsi 8191#32 (IntOp.maxsi 0#32 (q j)) := rfl

/-- The clamp's result is a row of the table of hidden states, whatever word it is applied to. -/
theorem clip_lt (w : BitVec 32) : (IntOp.minsi 8191#32 (IntOp.maxsi 0#32 w)).toNat < 8192 := by
  have h0 : (0#32 : BitVec 32).toInt = 0 := by decide
  have h1 : (8191#32 : BitVec 32).toInt = 8191 := by decide
  have hz : (0#32 : BitVec 32).toNat = 0 := by decide
  have hl : (8191#32 : BitVec 32).toNat = 8191 := by decide
  unfold IntOp.minsi IntOp.maxsi
  by_cases hw : w.slt 0#32 = true
  · rw [if_pos hw]
    have : ¬ ((8191#32 : BitVec 32).slt 0#32 = true) := by decide
    rw [if_neg this, hz]; omega
  · rw [if_neg hw]
    by_cases hs : (8191#32 : BitVec 32).slt w = true
    · rw [if_pos hs, hl]; omega
    · rw [if_neg hs]
      -- 0 ≤ w ≤ 8191 as signed integers, so the unsigned reading is the signed one
      have a : ¬ (w.toInt < 0) := by
        intro h; apply hw; rw [BitVec.slt, h0]; exact decide_eq_true h
      have b : ¬ (8191 < w.toInt) := by
        intro h; apply hs; rw [BitVec.slt, h1]; exact decide_eq_true h
      have hlt := w.isLt
      rw [BitVec.toInt_eq_toNat_cond] at a b
      split at a <;> omega

/-- Every word of the clamped vector is below 8192. -/
theorem clipRows_lt (q : IVec S16384 32) (j : S16384.Idx) : (clipRows q j).toNat < 8192 := by
  rw [clipRows_apply]; exact clip_lt _

/-- The table's word at slot `p` is the source row of slot `p`. -/
theorem tokens_toNat (ids : IVec S16384 32) (p : Fin 16384) :
    (tokens ids (ix1 p)).toNat = (srcRow ids p).val := by
  obtain ⟨k, hk, e⟩ := order_word ids (ix1 p)
  have hq : halfFloor (order ids) (ix1 p) = BitVec.ofNat 32 (k / 2) := halfFloor_apply _ _ k hk e
  show (clipRows (halfFloor (order ids)) (ix1 p)).toNat = (order ids (ix1 p)).toNat / 2 % 8192
  rw [clipRows_apply, hq, clip_id (k / 2) (by omega), toNat_ofNat_lt (k / 2) (by omega), e]
  have : (BitVec.ofNat 32 k).toNat = k := by
    rw [BitVec.toNat_ofNat]; exact Nat.mod_eq_of_lt (by omega)
  rw [this]
  exact (Nat.mod_eq_of_lt (by omega)).symm

end Cert.Route

end
-- ==== Proof.KernelTable.lean ====
/-
  The table the gather's index map reads, and that every block it names lies inside the hidden states.

  The table is written by the host operations before the region: the flattened expert ids, their stable argsort, its
  floor division by two, the clamp into [0, 8191] — `Route.tokens` of the flattened ids. The index map of the source
  window sends grid point `i` to block (table[i], 0, 0) of the [8192, 1, 4096] view of the hidden states; the clamp
  bounds every word of the table by 8191, so the block is inside the array whatever the ids are.
-/
import proofs.«415783_j54563264529075_2_alg».proof.Defs
import proofs.«415783_j54563264529075_2_alg».proof.Proof.Gen.Kernel.Frame
import proofs.«415783_j54563264529075_2_alg».proof.Proof.RouteChain
import Idealize.ShloMosaic.Lib.StableHlo.Run

set_option maxRecDepth 16384

noncomputable section

namespace Cert.Kernel.Table

open Cert.Kernel Cert.Kernel.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The expert ids on core `c`, flattened to one word per replica. -/
abbrev ids (c : Dev nD) : IVec S16384 32 :=
  shapeCast S16384 (m ((c.tc : Thread nD τ).loc main_arg1)) shapeCasts_S8192x2_S16384

/-- The one prefetched table is the clamped row vector's buffer. -/
theorem pre_ref0 : pre0.ref (0 : Fin 1) = main_v3 := rfl

/-- The table's contents are what the region finds in that buffer. -/
theorem tbl_V : tbl m 0 = V m (0 : Dev nD) main_v3 := rfl

set_option maxHeartbeats 1000000 in
attribute [local irreducible] Host.sort2 in
/-- THE TABLE: slot ↦ source row, as the host operations before the region leave it. -/
theorem tbl_eq : tbl m 0 = Cert.Route.tokens (ids m 0) := by
  rw [tbl_V]
  dsimp only [V, V0]
  simp only [hostOps0, hostOps0_1, hostOps0_2, hostOps0_3, hostOps0_4, hostOps0_5, hostOps0_6, List.flatten_cons,
    List.flatten_nil, List.append_nil, List.cons_append, List.nil_append]
  after_results_simp
  rfl

/-- Every word of the table is a row of the hidden states. -/
theorem tbl_lt (x : S16384.Idx) : (tbl m 0 x).toNat < 8192 := by
  rw [tbl_eq]
  exact Cert.Route.clipRows_lt _ x

/-- The source window's index map reads ONE word of the table and names the block (word, 0, 0), at any contents. -/
theorem transform_0_eq (pf : pre0.Contents (Elt F)) (i : grid0.Coords) :
    ∃ x : S16384.Idx, cc0_transform_0 k0_off1_inb numel1_S1 pf i = ![(pf 0 x).toNat, 0, 0] :=
  ⟨_, rfl⟩

/-- THE PIPELINE'S SIDE CONDITION: at every grid point the source block lies inside the [8192, 1, 4096] array. -/
theorem ok : Ok m := by
  intro i
  obtain ⟨x, e⟩ := transform_0_eq (tbl m) i
  have hx := tbl_lt m x
  refine ⟨fun a => ?_, Or.inl rfl⟩
  rw [e]
  fin_cases a <;> simp [S1x1x4096, S8192x1x4096] <;> omega

end Cert.Kernel.Table

end
-- ==== Proof.KernelIdealTable.lean ====
/-
  The table the gather's index map reads, and that every block it names lies inside the hidden states.

  The table is written by the host operations before the region: the flattened expert ids, their stable argsort, its
  floor division by two, the clamp into [0, 8191] — `Route.tokens` of the flattened ids. The index map of the source
  window sends grid point `i` to block (table[i], 0, 0) of the [8192, 1, 4096] view of the hidden states; the clamp
  bounds every word of the table by 8191, so the block is inside the array whatever the ids are.
-/
import proofs.«415783_j54563264529075_2_alg».proof.Defs
import proofs.«415783_j54563264529075_2_alg».proof.Proof.Gen.KernelIdeal.Frame
import proofs.«415783_j54563264529075_2_alg».proof.Proof.RouteChain
import Idealize.ShloMosaic.Lib.StableHlo.Run

set_option maxRecDepth 16384

noncomputable section

namespace Cert.KernelIdeal.Table

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The expert ids on core `c`, flattened to one word per replica. -/
abbrev ids (c : Dev nD) : IVec S16384 32 :=
  shapeCast S16384 (m ((c.tc : Thread nD τ).loc main_arg1)) shapeCasts_S8192x2_S16384

/-- The one prefetched table is the clamped row vector's buffer. -/
theorem pre_ref0 : pre0.ref (0 : Fin 1) = main_v3 := rfl

/-- The table's contents are what the region finds in that buffer. -/
theorem tbl_V : tbl m 0 = V m (0 : Dev nD) main_v3 := rfl

set_option maxHeartbeats 1000000 in
attribute [local irreducible] Host.sort2 in
/-- THE TABLE: slot ↦ source row, as the host operations before the region leave it. -/
theorem tbl_eq : tbl m 0 = Cert.Route.tokens (ids m 0) := by
  rw [tbl_V]
  dsimp only [V, V0]
  simp only [hostOps0, hostOps0_1, hostOps0_2, hostOps0_3, hostOps0_4, hostOps0_5, hostOps0_6, List.flatten_cons,
    List.flatten_nil, List.append_nil, List.cons_append, List.nil_append]
  after_results_simp
  rfl

/-- Every word of the table is a row of the hidden states. -/
theorem tbl_lt (x : S16384.Idx) : (tbl m 0 x).toNat < 8192 := by
  rw [tbl_eq]
  exact Cert.Route.clipRows_lt _ x

/-- The source window's index map reads ONE word of the table and names the block (word, 0, 0), at any contents. -/
theorem transform_0_eq (pf : pre0.Contents (Elt F)) (i : grid0.Coords) :
    ∃ x : S16384.Idx, cc0_transform_0 k0_off1_inb numel1_S1 pf i = ![(pf 0 x).toNat, 0, 0] :=
  ⟨_, rfl⟩

/-- THE PIPELINE'S SIDE CONDITION: at every grid point the source block lies inside the [8192, 1, 4096] array. -/
theorem ok : Ok m := by
  intro i
  obtain ⟨x, e⟩ := transform_0_eq (tbl m) i
  have hx := tbl_lt m x
  refine ⟨fun a => ?_, Or.inl rfl⟩
  rw [e]
  fin_cases a <;> simp [S1x1x4096, S8192x1x4096] <;> omega

end Cert.KernelIdeal.Table

end
-- ==== Proof.KernelIdealValue.lean ====
/-
  What the idealized kernel computes: the result buffer holds, in slot `p`, the hidden-state row of the token whose
  replica the stable argsort of the expert ids puts in slot `p`.

  The body copies the source window's block to the result window's block. The source window's index map reads the
  prefetched table, so at grid point `t` the source block is row table[t] of the hidden states, seen as an
  [8192, 1, 4096] array; the table's word is the source row of slot `t`. The result window's block at point `t` is row
  `t` of the [16384, 1, 4096] array, the blocks of the 16384 points tile it, and the reshape after the region drops
  the unit axis.
-/
import proofs.«415783_j54563264529075_2_alg».proof.Proof.KernelIdealTable
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Table
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-! ## The body: the output block is the input block -/

theorem hz : (![0, 0, 0] : Fin 3 → Nat) = fun _ => 0 := by funext a; fin_cases a <;> rfl

/-- The stored value is the loaded row: a shape cast between equal shapes changes nothing. -/
theorem pay1_eq (v : Vec F S1x1x4096 .f32) : k0_pay1 v = v := by
  unfold k0_pay1; exact shapeCast_self v _

/-- The one store covers the output's staging buffer with the row loaded from the input's. -/
theorem out_eq (c : Dev nD) (i : grid0.Coords) (arg2 : Memref sig .tc .vmem S1x1x4096 .f32) (harg2 : arg2.IsWhole)
    (arg3 : Memref sig .tc .vmem S1x1x4096 .f32) (harg3 : arg3.IsWhole) (x0 : Vec F S1x1x4096 .f32)
    (xt0 : TbBuf0 (F := F) c tbM0_0) : out0_A_1 c i arg2 harg2 arg3 harg3 x0 xt0 = x0 := by
  unfold out0_A_1
  rw [View.read_writes_eq_canon VO0_1 VO0_1.junk _ (cover0_A_1 c i arg2 harg2 arg3 harg3 x0 xt0)]
  unfold kernelRun0_A
  dsimp only
  rw [View.canon_unit_zero (S := S1x1x4096) hz, pay1_eq]
  simp only [View.readAt_eq_ld, harg2.read_unread, View.ld_unit_zero (S := S1x1x4096) hz]

/-- At every grid point the body leaves the source block in the output's staging buffer. -/
theorem outs_eq (hO : Ok m) (c : Dev nD) (t : Fin (cfgM m hO).N) : outsAt0 m hO c t = iblk m hO c 0 t := by
  unfold outsAt0
  exact out_eq c (grid0.coords t) (ms0_0 m hO t) (hs0_0 m hO t) (ms0_1 m hO t) (hs0_1 m hO t) (iblk m hO c 0 t) (tbl m 0)

/-! ## The arrays around the region -/

/-- The hidden states on core `c`. -/
abbrev xs (c : Dev nD) : S8192x4096.Idx → Elt F .f32 := m ((c.tc : Thread nD τ).loc main_arg0)

/-- The source array as the region finds it: the hidden states seen as [8192, 1, 4096]. -/
theorem V_v4 (c : Dev nD) : (V m c main_v4 : S8192x1x4096.Idx → Elt F .f32)
    = shapeCast S8192x1x4096 (xs m c) shapeCasts_S8192x4096_S8192x1x4096 := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  rfl

/-- Entry (r, 0, q) of the [8192, 1, 4096] view is entry (r, q) of the matrix: the same row-major position. -/
theorem view3_apply {α : Type} (x : S8192x4096.Idx → α) (r : Fin 8192) (z : Fin 1) (q : Fin 4096) :
    shapeCast S8192x1x4096 x shapeCasts_S8192x4096_S8192x1x4096 (ix3 r z q) = x (ix2 r q) := by
  refine shapeCast_apply x _ _ _ ?_
  rw [Shape.rowMajor_val_two, Shape.rowMajor_val_three]
  have hz := z.isLt
  show r.val * 4096 + q.val = (r.val * 1 + z.val) * 4096 + q.val
  omega

/-- Entry (p, q) of the [16384, 4096] result is entry (p, 0, q) of the [16384, 1, 4096] array the region wrote. -/
theorem view2_apply {α : Type} (y : S16384x1x4096.Idx → α) (p : Fin 16384) (q : Fin 4096) :
    shapeCast S16384x4096 y shapeCasts_S16384x1x4096_S16384x4096 (ix2 p q) = y (ix3 p ⟨0, Nat.one_pos⟩ q) := by
  refine shapeCast_apply y _ _ _ ?_
  rw [Shape.rowMajor_val_two, Shape.rowMajor_val_three]
  show (p.val * 1 + 0) * 4096 + q.val = p.val * 4096 + q.val
  omega

/-! ## The grid -/

/-- The grid is one axis of 16384 points: a point is its one coordinate. -/
theorem coords_val (t : Fin grid0.N) : (grid0.coords t 0).val = t.val := by
  show t.val / grid0.stride 0 % grid0.bound 0 = t.val
  rw [show grid0.stride 0 = 1 from by decide, show grid0.bound 0 = 16384 from rfl]
  have : t.val < 16384 := lt_of_lt_of_eq t.isLt N_0
  omega

/-! ## The index maps, at any contents of the table -/

/-- The source window's index map reads the table's word at the grid point and names the block (word, 0, 0). -/
theorem transform_0_word (pf : pre0.Contents (Elt F)) (i : grid0.Coords) :
    cc0_transform_0 k0_off1_inb numel1_S1 pf i = ![(pf 0 (ix1 ⟨(i 0).val, (i 0).isLt⟩)).toNat, 0, 0] := by
  have hx : ((Rect.unit (s := S16384) (k0_off1 i) S1.size (k0_off1_inb i)).emb
      (Shape.Idx.first (numel1_S1.symm ▸ Nat.one_pos)) : S16384.Idx) = ix1 ⟨(i 0).val, (i 0).isLt⟩ := by
    funext a
    apply Fin.ext
    match a with
    | ⟨0, _⟩ =>
      have h1 : (Shape.Idx.first (s := S1) (numel1_S1.symm ▸ Nat.one_pos) (0 : Fin 1)).val < 1 :=
        (Shape.Idx.first (s := S1) (numel1_S1.symm ▸ Nat.one_pos) (0 : Fin 1)).isLt
      have h2 : (i 0).val < 16384 := (i 0).isLt
      show (BitVec.ofNat 32 (i 0).val).toNat + 1 * (Shape.Idx.first (s := S1) _ (0 : Fin 1)).val = (i 0).val
      rw [BitVec.toNat_ofNat, Nat.mod_eq_of_lt (by omega)]
      omega
  show ![(pf 0 ((Rect.unit (s := S16384) (k0_off1 i) S1.size (k0_off1_inb i)).emb
      (Shape.Idx.first (numel1_S1.symm ▸ Nat.one_pos)))).toNat, 0, 0] = _
  exact congrArg (fun x : S16384.Idx => (![(pf 0 x).toNat, 0, 0] : Fin 3 → Nat)) hx

/-- The result window's index map names the block (point, 0, 0). -/
theorem transform_1_word (i : grid0.Coords) : cc0_transform_1 i = ![(i 0).val, 0, 0] := by
  have h2 : (i 0).val < 16384 := (i 0).isLt
  show ![(BitVec.ofNat 32 (i 0).val).toNat, 0, 0] = _
  rw [BitVec.toNat_ofNat, Nat.mod_eq_of_lt (by omega)]

/-! ## The windows' blocks -/

/-- A block's entry `y` is the array's entry at: block index × block size + `y`, axis by axis. -/
theorem blk0_emb (a : (pcfg0 (F := F)).Adm) (t : Fin (cfg0 a).N) (y : S1x1x4096.Idx) (d : Fin 3) :
    (((((cfg0 a).win 0).blk t).view.emb y : S8192x1x4096.Idx) d).val
      = cc0_transform_0 k0_off1_inb numel1_S1 a.1 (grid0.coords t) d * S1x1x4096.size d + 1 * (y d).val := rfl

theorem blk1_emb (a : (pcfg0 (F := F)).Adm) (t : Fin (cfg0 a).N) (y : S1x1x4096.Idx) (d : Fin 3) :
    (((((cfg0 a).win 1).blk t).view.emb y : S16384x1x4096.Idx) d).val
      = cc0_transform_1 (grid0.coords t) d * S1x1x4096.size d + 1 * (y d).val := rfl

theorem y0 (y : S1x1x4096.Idx) : (y 0).val = 0 := by have : (y 0).val < 1 := (y 0).isLt; omega
theorem y1 (y : S1x1x4096.Idx) : (y 1).val = 0 := by have : (y 1).val < 1 := (y 1).isLt; omega
theorem y2 (y : S1x1x4096.Idx) : (y 2).val < 4096 := (y 2).isLt

/-- The source window's block at point `t`, read off any contents `A` of the [8192, 1, 4096] array: row table[t]. -/
theorem blk0_read (a : (pcfg0 (F := F)).Adm) (pf : pre0.Contents (Elt F)) (hpf : a.1 = pf)
    (A : S8192x1x4096.Idx → Elt F .f32) (t : Fin (cfg0 a).N)
    (y : S1x1x4096.Idx) (r : Fin 8192)
    (hr : r.val = (pf 0 (ix1 ⟨t.val, lt_of_lt_of_eq t.isLt N_0⟩)).toNat) :
    (((cfg0 a).win 0).blk t).view.read (Elt F) A y = A (ix3 r ⟨0, Nat.one_pos⟩ ⟨(y 2).val, y2 y⟩) := by
  subst hpf
  have hc : (ix1 ⟨(grid0.coords t 0).val, (grid0.coords t 0).isLt⟩ : S16384.Idx)
      = ix1 ⟨t.val, lt_of_lt_of_eq t.isLt N_0⟩ := congrArg ix1 (Fin.ext (coords_val t))
  have he : ∀ d : Fin 3, (((((cfg0 a).win 0).blk t).view.emb y : S8192x1x4096.Idx) d).val
      = ((ix3 r ⟨0, Nat.one_pos⟩ ⟨(y 2).val, y2 y⟩ : S8192x1x4096.Idx) d).val := by
    intro d
    refine (blk0_emb a t y d).trans ?_
    rw [transform_0_word, hc, ← hr]
    match d with
    | ⟨0, _⟩ => show r.val * 1 + 1 * (y 0).val = r.val; rw [y0 y]; omega
    | ⟨1, _⟩ => show 0 * 1 + 1 * (y 1).val = 0; rw [y1 y]
    | ⟨2, _⟩ => show 0 * 4096 + 1 * (y 2).val = (y 2).val; omega
  show A ((((cfg0 a).win 0).blk t).view.emb y) = _
  exact congrArg A (funext fun d => Fin.ext (he d))

/-- The result window's block at point `t`, read off any contents `A` of the [16384, 1, 4096] array: row `t`. -/
theorem blk1_read (a : (pcfg0 (F := F)).Adm) (A : S16384x1x4096.Idx → Elt F .f32) (t : Fin (cfg0 a).N)
    (y : S1x1x4096.Idx) :
    (((cfg0 a).win 1).blk t).view.read (Elt F) A y
      = A (ix3 ⟨t.val, lt_of_lt_of_eq t.isLt N_0⟩ ⟨0, Nat.one_pos⟩ ⟨(y 2).val, y2 y⟩) := by
  have he : ∀ d : Fin 3, (((((cfg0 a).win 1).blk t).view.emb y : S16384x1x4096.Idx) d).val
      = ((ix3 ⟨t.val, lt_of_lt_of_eq t.isLt N_0⟩ ⟨0, Nat.one_pos⟩ ⟨(y 2).val, y2 y⟩ : S16384x1x4096.Idx) d).val := by
    intro d
    refine (blk1_emb a t y d).trans ?_
    rw [transform_1_word, coords_val]
    match d with
    | ⟨0, _⟩ => show t.val * 1 + 1 * (y 0).val = t.val; rw [y0 y]; omega
    | ⟨1, _⟩ => show 0 * 1 + 1 * (y 1).val = 0; rw [y1 y]
    | ⟨2, _⟩ => show 0 * 4096 + 1 * (y 2).val = (y 2).val; omega
  show A ((((cfg0 a).win 1).blk t).view.emb y) = _
  exact congrArg A (funext fun d => Fin.ext (he d))

/-! ## What the region writes -/

/-- The [16384, 1, 4096] array the region leaves: slot `p` holds the hidden state of the slot's source row. -/
def gathered (c : Dev nD) : S16384x1x4096.Idx → Elt F .f32 :=
  fun j => xs m c (ix2 (Cert.Route.srcRow (ids m c) ⟨(j 0).val, (j 0).isLt⟩) ⟨(j 2).val, (j 2).isLt⟩)

/-- The table's word at slot `t`, as a row of the hidden states, is the slot's source row. -/
theorem row_val (p : Fin 16384) : (tbl m 0 (ix1 p)).toNat = (Cert.Route.srcRow (ids m 0) p).val := by
  rw [tbl_eq]
  exact Cert.Route.tokens_toNat (ids m 0) p

/-- The source block at point `t` is row `srcRow t` of the hidden states. -/
theorem iblk_apply (hO : Ok m) (c : Dev nD) (t : Fin (cfgM m hO).N) (y : S1x1x4096.Idx) :
    iblk m hO c 0 t y
      = xs m c (ix2 (Cert.Route.srcRow (ids m c) ⟨t.val, lt_of_lt_of_eq t.isLt N_0⟩) ⟨(y 2).val, y2 y⟩) := by
  obtain rfl : c = 0 := Subsingleton.elim _ _
  have h1 : iblk m hO 0 0 t y = (((cfg0 (adm m hO)).win 0).blk t).view.read (Elt F) (V m 0 main_v4) y := rfl
  have h2 := blk0_read (adm m hO) (tbl m) rfl (V m 0 main_v4) t y
    (Cert.Route.srcRow (ids m 0) ⟨t.val, lt_of_lt_of_eq t.isLt N_0⟩)
    (row_val m ⟨t.val, lt_of_lt_of_eq t.isLt N_0⟩).symm
  refine h1.trans (h2.trans ?_)
  rw [V_v4 m 0, view3_apply]

/-- WHAT POINT `t` WRITES BACK is block `t` of `gathered`. -/
theorem flushed_eq (hO : Ok m) (c : Dev nD) (t : Fin (cfgM m hO).N) (_ : ((cfgM m hO).win 1).flush t = true) :
    (dats m hO 0 c).flushed 1 t = (((cfgM m hO).win 1).blk t).view.read (Elt F) (gathered m c) := by
  show ((cfgM m hO).win 1).cut ((cfgM m hO).grid.coords t) ((dats m hO 0 c).after 1 t) = _
  rw [after0_1, outs_eq]
  funext y
  exact (iblk_apply m hO c t y).trans ((blk1_read (adm m hO) (gathered m c) t y).trans rfl).symm

/-- Every entry of the [16384, 1, 4096] array is in the block of the point its slot names. -/
theorem cover (hO : Ok m) (i : S16384x1x4096.Idx) :
    ∃ t : Fin (cfgM m hO).N, ((cfgM m hO).win 1).flush t = true ∧ i ∈ (((cfgM m hO).win 1).blk t).view.set := by
  have hi0 : (i 0).val < 16384 := (i 0).isLt
  have hi1 : (i 1).val < 1 := (i 1).isLt
  have hi2 : (i 2).val < 4096 := (i 2).isLt
  let t : Fin (cfgM m hO).N := ⟨(i 0).val, lt_of_lt_of_eq hi0 N_0.symm⟩
  refine ⟨t, flush0_1 (adm m hO) t, ?_⟩
  show i ∈ ((View.whole main_v5).slice (((cfgM m hO).win 1).rect t)).set
  refine (congrArg (fun s => i ∈ s) (View.set_slice_whole main_v5 (((cfgM m hO).win 1).rect t))).mpr ?_
  refine Rect.mem_set_unit.mpr ?_
  intro a
  show cc0_transform_1 (grid0.coords t) a * S1x1x4096.size a ≤ (i a).val
    ∧ (i a).val < cc0_transform_1 (grid0.coords t) a * S1x1x4096.size a + S1x1x4096.size a
  rw [transform_1_word, coords_val]
  match a with
  | ⟨0, _⟩ => show (i 0).val * 1 ≤ (i 0).val ∧ (i 0).val < (i 0).val * 1 + 1; omega
  | ⟨1, _⟩ => show 0 * 1 ≤ (i 1).val ∧ (i 1).val < 0 * 1 + 1; omega
  | ⟨2, _⟩ => show 0 * 4096 ≤ (i 2).val ∧ (i 2).val < 0 * 4096 + 4096; omega

/-- THE ARRAY THE REGION LEAVES. -/
theorem final (hO : Ok m) (c : Dev nD) : (dats m hO 0 c).arrAt 1 (cfgM m hO).N = gathered m c :=
  (dats m hO 0 c).arrAt_eq_of_cover 1 (gathered m c) (flushed_eq m hO c) (cover m hO)

/-! ## The reshape after the region, and the run -/

/-- The result buffer after the host reshape: the region's array seen as [16384, 4096], which is the dispatch. -/
theorem tail_eq (hO : Ok m) (c : Dev nD) :
    Pipeline.afterTail pcfgs (fun _ => adm m hO) (dats m hO) 0 (V0 m) [hostOps1] c main_v6
      = Cert.Route.routed (xs m c) (ids m c) := by
  unfold Pipeline.afterTail
  show StableHlo.after hostOps1 _ (Proc.devRef .tc main_v6) = _
  after_results
  have hw : Pipeline.withArrays (Pipeline.pin pcfgs (fun _ => adm m hO) 0).spec c (V0 m c)
      (fun w => (dats m hO 0 c).arrAt w (Pipeline.pin pcfgs (fun _ => adm m hO) 0).N) (Proc.devRef .tc main_v5)
      = gathered m c :=
    (Pipeline.withArrays_arr spec0 winFacts0.arr_inj c _ _ 1).trans (final m hO c)
  funext i
  obtain ⟨p, q, rfl⟩ : ∃ (p : Fin 16384) (q : Fin 4096), i = ix2 p q := ⟨i 0, i 1, eq_ix2 i⟩
  show shapeCast S16384x4096 _ shapeCasts_S16384x1x4096_S16384x4096 (ix2 p q) = _
  rw [hw, view2_apply]
  rfl

/-- THE KERNEL'S RUN, its result named: from any memory every weakly fair execution terminates with the result buffer
    at the dispatch of the hidden states by the flattened expert ids, the arguments unchanged. -/
theorem run : θ_run defs (onTc (τ := τ) (main (F := F))) ⟨m, fun _ => 0, ρ⟩ fun r => ∀ c : Dev nD,
      r.2.mem ((c.tc : Thread nD τ).loc main_v6) = Cert.Route.routed (xs m c) (ids m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v6 (by decide : main_v6 ∈ Pipeline.restRefs sig spec0)).trans (tail_eq m (ok m) c),
        ((h c).2 main_arg0 (by decide : main_arg0 ∈ Pipeline.restRefs sig spec0)).trans (W_main_arg0 m (ok m) (dats m (ok m)) c),
        ((h c).2 main_arg1 (by decide : main_arg1 ∈ Pipeline.restRefs sig spec0)).trans (W_main_arg1 m (ok m) (dats m (ok m)) c)⟩)
    (run_main m ρ (ok m))

end Cert.KernelIdeal.KValue

end
-- ==== Proof.RefRun.lean ====
/-
  The reference program's @main as the list of its host operations, the module-local functions' operations listed
  inline at each call over that call's record of buffers, and its run read back: every weakly fair execution
  terminates with each buffer at the operations' fold over the launch contents.
-/
import proofs.«415783_j54563264529075_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- @main's operations in order, the calls unfolded: the reshape of the expert ids to one axis; @argsort's three
    (the iota, one line per result of the two-operand sort); the scalar 2; @floor_divide's seventeen (the divisor
    converted and broadcast, the truncated quotient, the two signs and their comparison, the remainder and its
    comparison with zero, the conjunction, the quotient less one, and @_where's select between the two); @_take's
    twenty-three (the wrap of negative rows by 8192 through @_where's select, the row numbers as a column, the
    bounds mask and its reduction over the unit axis, the gather of whole rows, the mask broadcast over the
    columns, the fill value and the select). -/
abbrev ops : List (HloOp τ sig (Elt F)) :=
  [ reshape main_arg1 main_v0 rfl shapeCasts_S8192x2_S16384,
    TRef.nullary main_call0.v0 (iotaInDim S16384 32 0),
    TRef.binary (.of main_v0) main_call0.v0 main_call0.v1_0 (fun x y => (Host.sort2 S16384 0 comparator_i32_i32_d0 x y).1),
    TRef.binary (.of main_v0) main_call0.v0 main_call0.v1_1 (fun x y => (Host.sort2 S16384 0 comparator_i32_i32_d0 x y).2),
    nullary main_c (constantI S_ 32 2#32),
    TRef.unary (.of main_c) main_call1.v0 id,
    TRef.unary main_call1.v0 main_call1.v1 (broadcastInDim S16384 ![] bcast_S_S16384),
    TRef.binary (.of main_v1) main_call1.v1 main_call1.v2 Host.divsi,
    TRef.unary (.of main_v1) main_call1.v3 signi,
    TRef.unary main_call1.v0 main_call1.v4 signi,
    TRef.unary main_call1.v4 main_call1.v5 (broadcastInDim S16384 ![] bcast_S_S16384),
    TRef.binary main_call1.v3 main_call1.v5 main_call1.v6 (cmpi .ne),
    TRef.unary main_call1.v0 main_call1.v7 (broadcastInDim S16384 ![] bcast_S_S16384),
    TRef.binary (.of main_v1) main_call1.v7 main_call1.v8 Host.remsi,
    TRef.nullary main_call1.c (constantI S_ 32 0#32),
    TRef.unary main_call1.c main_call1.v9 (broadcastInDim S16384 ![] bcast_S_S16384),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S16384 ![] bcast_S_S16384),
    TRef.binary main_call1.v2 main_call1.v12 main_call1.v13 subi,
    TRef.ternary main_call1.v11 main_call1.v13 main_call1.v2 main_call1.call0.v0 select,
    TRef.nullary main_call2.c (constantI S_ 32 0#32),
    TRef.unary main_call2.c main_call2.v0 (broadcastInDim S16384 ![] bcast_S_S16384),
    TRef.binary (.of main_v2) main_call2.v0 main_call2.v1 (cmpi .slt),
    TRef.nullary main_call2.c_0 (constantI S_ 32 8192#32),
    TRef.unary main_call2.c_0 main_call2.v2 (broadcastInDim S16384 ![] bcast_S_S16384),
    TRef.binary (.of main_v2) main_call2.v2 main_call2.v3 addi,
    TRef.ternary main_call2.v1 main_call2.v3 (.of main_v2) main_call2.call0.v0 select,
    TRef.unary main_call2.call0.v0 main_call2.v5 (broadcastInDim S16384x1 ![0] bcast_S16384_S16384x1_0),
    TRef.nullary main_call2.c_1 (constantI S1 32 8191#32),
    TRef.nullary main_call2.c_2 (constantI S_ 32 0#32),
    TRef.unary main_call2.c_2 main_call2.v6 (broadcastInDim S16384x1 ![] bcast_S_S16384x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S16384x1 ![0, 1] bcast_S1x1_S16384x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S16384x1_S16384_d1 h_S_),
    TRef.binary (.of main_arg0) main_call2.v5 main_call2.v13 (fun x i => Host.gather gather_S8192x4096_S16384x1_S16384x4096_1_0_n_n_0_1_14096 x i),
    TRef.unary main_call2.v12 main_call2.v14 (broadcastInDim S16384x4096 ![0] bcast_S16384_S16384x4096_0),
    TRef.nullary main_call2.cst (constant S_ .f32 0x7FC00000#32),
    TRef.unary main_call2.cst main_call2.v15 (broadcastInDim S16384x4096 ![] bcast_S_S16384x4096),
    TRef.ternary main_call2.v14 main_call2.v13 main_call2.v15 main_call2.v16 select ]

-- forty-five binds re-associated: the rewrite under the chain recurses once per statement
set_option maxRecDepth 1024 in
/-- @main is that straight line: the functions' definitions unfolded at their calls and the records at their
    fields, both sides are one chain of steps once sequencing is reassociated. -/
theorem main_eq (c : Dev nD) : main (F := F) c = seq ops := by
  simp only [main, fn_argsort.body, fn_floor_divide.body, fn_where.body, fn_take.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨reshape_bufs_sub ..,
    nullary_bufs_sub .., binary_bufs_sub .., binary_bufs_sub ..,
    nullary_bufs_sub ..,
    unary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- For any float values, from any memory with zero counters: every weakly fair execution of @main on the
    TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibGatherRows.lean ====
/-
  A gather that takes whole ROWS of a rank-2 table (what `table[idx]` prints for an `[N, C]` table and a vector of `n`
  row numbers laid out as an `[n, 1]` column of start indices): offset axis 1, collapsed axis 0, start index map `[0]`, the
  index vector along axis 1 of the start indices, slices of one row.

  Read at result index `(p, q)` it is the table at `(r, q)`, where `r` is start index `p` read signed and clamped into
  `[0, N − 1]`: on the row axis the operand coordinate is the clamped start (no batching axis, and a collapsed axis has
  no offset); on the column axis there is no start, and the offset coordinate is the result's own column.
-/
import Idealize.ShloMosaic.PureOps
import Idealize.ShloMosaic.Lib.ValueIdx

namespace Idealize.ShloMosaic.GatherRows

open Idealize.ShloMosaic Idealize.ShloMosaic.ValueIdx

variable {α : Type}

/-- The dimension numbers of a row-take from an `[N, C]` table by an `[n, 1]` column of row numbers. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW-TAKE READ AT `(p, q)`: the table at row `idx[p, 0]` (signed, clamped into `[0, N − 1]`), column `q`. -/
theorem gather_rows_apply {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 ⟨min (idx (ix2 p ⟨0, Nat.one_pos⟩)).toInt.toNat (N - 1), by omega⟩ q) := by
  unfold Host.gather
  congr 1
  funext a
  refine Fin.ext ?_
  show (rowDims N C n wf).start (ix2 p q) idx a + (rowDims N C n wf).batchCoord (ix2 p q) a
    + (rowDims N C n wf).offCoord (ix2 p q) a = _
  rw [GatherDims.batchCoord_eq_zero _ _ _ List.not_mem_nil, Nat.add_zero]
  match a with
  | ⟨0, _⟩ =>
    -- the row axis: collapsed, so no offset; its start is the clamped start index
    rw [GatherDims.offCoord_eq_zero _ _ _
      (fun h => ((GatherDims.mem_sKept _ _).mp h).1 (List.mem_singleton.mpr rfl)), Nat.add_zero]
    unfold GatherDims.start
    rw [dif_pos (show (⟨0, by decide⟩ : Fin 2) ∈ (rowDims N C n wf).startIndexMap from List.mem_singleton.mpr rfl)]
    have hsi : (rowDims N C n wf).siIdx (ix2 p q)
        ⟨List.idxOf (⟨0, by decide⟩ : Fin 2) (rowDims N C n wf).startIndexMap,
          List.idxOf_lt_length_iff.2 (List.mem_singleton.mpr rfl)⟩ = ix2 p ⟨0, Nat.one_pos⟩ := by
      funext b; refine Fin.ext ?_
      match b with
      | ⟨0, _⟩ => rfl
      | ⟨1, _⟩ => rfl
    rw [hsi]
    rfl
  | ⟨1, _⟩ =>
    -- the column axis: no start index names it; the offset is the result's own column
    have hs : (rowDims N C n wf).start (ix2 p q) idx (⟨1, Nat.one_lt_two⟩ : Fin 2) = 0 := by
      unfold GatherDims.start
      rw [dif_neg (fun h => by have := congrArg Fin.val (List.mem_singleton.mp h); simp at this)]
    rw [hs, Nat.zero_add]
    rfl

end Idealize.ShloMosaic.GatherRows
-- ==== Proof.RefValue.lean ====
/-
  What the reference program computes: its result buffer after the run is the dispatch of the specification — slot
  `p` holds the hidden-state row of the token whose replica the stable argsort of the expert ids puts in slot `p`.

  The operations' composed term is read at one element, operation by operation. The sorted iota holds a position
  number `k < 16384` at every slot, so the floor division by two gives the word of `k / 2 < 8192`; that row is not
  negative, so the wrap by 8192 is not taken; it lies in [0, 8191], so the bounds mask is set and its `and`-reduction
  over the unit axis is 1; the gather's clamp leaves the row; and the select on a set mask takes the gathered value,
  never the NaN fill.
-/
import proofs.«415783_j54563264529075_2_alg».proof.Proof.RefRun
import proofs.«415783_j54563264529075_2_alg».proof.Proof.RouteSpec
import proofs.«415783_j54563264529075_2_alg».proof.Proof.IndexWords
import proofs.«415783_j54563264529075_2_alg».proof.Proof.LibGatherRows
import Idealize.ShloMosaic.Lib.ValueIdx
import Idealize.ShloMosaic.PureOps.Reduce
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.RefRun

variable {F : FTy → Type} [FloatOps F]

/-! ## The operations' composed term, by function -/

/-- @floor_divide by the scalar 2 over the sorted positions `o`: the quotient rounded toward zero, less one where the
    operands' signs differ and the remainder is not zero. -/
def rowWords (o : IVec S16384 32) : IVec S16384 32 :=
  let two : IVec S_ 32 := id (constantI S_ 32 2#32)
  let quot : IVec S16384 32 := Host.divsi o (broadcastInDim S16384 ![] bcast_S_S16384 two)
  select
    (andi (cmpi .ne (signi o) (broadcastInDim S16384 ![] bcast_S_S16384 (signi two)))
      (cmpi .ne (Host.remsi o (broadcastInDim S16384 ![] bcast_S_S16384 two))
        (broadcastInDim S16384 ![] bcast_S_S16384 (constantI S_ 32 0#32))))
    (subi quot (broadcastInDim S16384 ![] bcast_S_S16384 (constantI S_ 32 1#32)))
    quot

/-- @_take's row numbers as a column: a negative row wrapped by 8192, then laid out as [16384, 1]. -/
def rowCol (r : IVec S16384 32) : IVec S16384x1 32 :=
  broadcastInDim S16384x1 ![0] bcast_S16384_S16384x1_0
    (select (cmpi .slt r (broadcastInDim S16384 ![] bcast_S_S16384 (constantI S_ 32 0#32)))
      (addi r (broadcastInDim S16384 ![] bcast_S_S16384 (constantI S_ 32 8192#32))) r)

/-- @_take's bounds mask over the column of rows: 0 ≤ row and row ≤ 8191. -/
def inBounds (col : IVec S16384x1 32) : IVec S16384x1 1 :=
  andi (cmpi .sge col (broadcastInDim S16384x1 ![] bcast_S_S16384x1 (constantI S_ 32 0#32)))
    (cmpi .sle col (broadcastInDim S16384x1 ![0, 1] bcast_S1x1_S16384x1_0_1
      (broadcastInDim S1x1 ![1] bcast_S1_S1x1_1 (constantI S1 32 8191#32))))

/-- @_take over the table `x` and the rows `r`: the gather of whole rows where the row is in bounds, the fill elsewhere. -/
def taken (x : FVec F S8192x4096 .f32) (r : IVec S16384 32) : FVec F S16384x4096 .f32 :=
  select
    (broadcastInDim S16384x4096 ![0] bcast_S16384_S16384x4096_0
      (Host.reduce IntOp.andi (inBounds (rowCol r)) (constantI S_ 1 1#1) reducesTo_S16384x1_S16384_d1 h_S_))
    (Host.gather gather_S8192x4096_S16384x1_S16384x4096_1_0_n_n_0_1_14096 x (rowCol r))
    (broadcastInDim S16384x4096 ![] bcast_S_S16384x4096 (constant S_ .f32 0x7FC00000#32))

/-- The whole reference: the expert ids flattened, the iota sorted along with them, halved, taken. -/
def refOut (x : FVec F S8192x4096 .f32) (e : IVec S8192x2 32) : FVec F S16384x4096 .f32 :=
  taken x (rowWords
    (Host.sort2 S16384 0 comparator_i32_i32_d0 (shapeCast S16384 e shapeCasts_S8192x2_S16384) (iotaInDim S16384 32 0)).2)

attribute [local irreducible] Host.reduce Host.gather Host.sort2 in
set_option maxRecDepth 8192 in
set_option maxHeartbeats 400000 in
/-- The fold of the operations at the result buffer is that term of the arguments' contents: each operation's result
    read at its own buffer and carried past the others', the typed references' casts the identity at these literal
    references. The sort, the reduction and the gather stay folded meanwhile. -/
theorem out_eq (V : Valuation τ sig (Elt F)) :
    after (ops (F := F)) V (main_v3 : DevRef τ sig)
      = refOut (V (main_arg0 : DevRef τ sig)) (V (main_arg1 : DevRef τ sig)) := by
  after_results_simp
  simp only [TRef.ofBuf, TRef.toBuf, cast_eq]
  rfl

/-! ## The term read at one element -/

/-- The program's comparator is the specification's order on keys, and its sorted iota the specification's `order`. -/
theorem order_eq (ids : IVec S16384 32) :
    (Host.sort2 S16384 0 comparator_i32_i32_d0 ids (iotaInDim S16384 32 0)).2 = Cert.Route.order ids := rfl

/-- The floor division read at one position: the lowered expression over that position's word. -/
theorem rowWords_apply (o : IVec S16384 32) (j : S16384.Idx) :
    rowWords o j
      = Scalar.select
          (IntOp.andi (IntOp.cmpi .ne (Cert.Route.sgn (o j)) (Cert.Route.sgn 2#32))
            (IntOp.cmpi .ne (IntOp.remsi .host (o j) 2#32) 0#32))
          (IntOp.subi (IntOp.divsi .host (o j) 2#32) 1#32)
          (IntOp.divsi .host (o j) 2#32) := rfl

/-- Where the position's word is a number below 16384, the row is that number halved. -/
theorem rowWords_ofNat (o : IVec S16384 32) (j : S16384.Idx) (k : Nat) (hk : k < 16384) (ho : o j = BitVec.ofNat 32 k) :
    rowWords o j = BitVec.ofNat 32 (k / 2) := by
  rw [rowWords_apply, ho]
  exact Cert.Route.floordiv_two k hk

/-- The column of rows read at (p, 0): the wrap's select over the row at `p`. -/
theorem rowCol_apply (r : IVec S16384 32) (p : Fin 16384) (z : Fin 1) :
    rowCol r (ix2 p z)
      = Scalar.select (IntOp.cmpi .slt (r (ix1 p)) 0#32) (IntOp.addi (r (ix1 p)) 8192#32) (r (ix1 p)) := by
  show Scalar.select (IntOp.cmpi .slt (r _) 0#32) (IntOp.addi (r _) 8192#32) (r _) = _
  have e : (fun a : Fin S16384.rank =>
      if h1 : S16384.size a = 1 then (⟨0, by omega⟩ : Fin (S16384.size a))
      else ⟨((ix2 p z : S16384x1.Idx) ((![0] : Fin 1 → Fin S16384x1.rank) a)).val, by
        rcases bcast_S16384_S16384x1_0.2 a with h2 | h2
        · exact absurd h2 h1
        · rw [h2]; exact ((ix2 p z : S16384x1.Idx) _).isLt⟩) = ix1 p := by
    funext a; match a with | ⟨0, _⟩ => rfl
  rw [e]

/-- A row below 8192 is not wrapped: the column holds it as it is. -/
theorem rowCol_ofNat (r : IVec S16384 32) (p : Fin 16384) (z : Fin 1) (n : Nat) (hn : n < 8192)
    (hr : r (ix1 p) = BitVec.ofNat 32 n) : rowCol r (ix2 p z) = BitVec.ofNat 32 n := by
  rw [rowCol_apply, hr, Cert.Route.slt_zero n hn]
  rfl

/-- The bounds mask read at one element: the two comparisons of the column's word. -/
theorem inBounds_apply (col : IVec S16384x1 32) (i : S16384x1.Idx) :
    inBounds col i = IntOp.andi (IntOp.cmpi .sge (col i) 0#32) (IntOp.cmpi .sle (col i) 8191#32) := rfl

/-- A row below 8192 is in bounds. -/
theorem inBounds_ofNat (col : IVec S16384x1 32) (i : S16384x1.Idx) (n : Nat) (hn : n < 8192)
    (hc : col i = BitVec.ofNat 32 n) : inBounds col i = 1#1 := by
  rw [inBounds_apply, hc, Cert.Route.sge_zero n hn, Cert.Route.sle_last n hn]
  rfl

/-- A left fold by `and` from 1 over a list of 1s is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- A reduction by `and` from 1 of a mask that is 1 everywhere is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ fun i _ => hx i

/-- The reduced mask laid over the columns, read at (p, q): the reduced mask at `p`. -/
theorem maskB_apply (mk : IVec S16384 1) (p : Fin 16384) (q : Fin 4096) :
    broadcastInDim S16384x4096 ![0] bcast_S16384_S16384x4096_0 mk (ix2 p q) = mk (ix1 p) := by
  show mk _ = _
  have e : (fun a : Fin S16384.rank =>
      if h1 : S16384.size a = 1 then (⟨0, by omega⟩ : Fin (S16384.size a))
      else ⟨((ix2 p q : S16384x4096.Idx) ((![0] : Fin 1 → Fin S16384x4096.rank) a)).val, by
        rcases bcast_S16384_S16384x4096_0.2 a with h2 | h2
        · exact absurd h2 h1
        · rw [h2]; exact ((ix2 p q : S16384x4096.Idx) _).isLt⟩) = ix1 p := by
    funext a; match a with | ⟨0, _⟩ => rfl
  rw [e]

/-- The program's gather is the take of whole rows: at (p, q) the table at the clamped row of the column, column `q`. -/
theorem gather_apply (x : FVec F S8192x4096 .f32) (col : IVec S16384x1 32) (p : Fin 16384) (q : Fin 4096) :
    Host.gather gather_S8192x4096_S16384x1_S16384x4096_1_0_n_n_0_1_14096 x col (ix2 p q)
      = x (ix2 ⟨min (col (ix2 p ⟨0, Nat.one_pos⟩)).toInt.toNat (8192 - 1), by omega⟩ q) :=
  Idealize.ShloMosaic.GatherRows.gather_rows_apply (N := 8192) (C := 4096) (n := 16384) (by decide)
    gather_S8192x4096_S16384x1_S16384x4096_1_0_n_n_0_1_14096_wf x col p q

/-- The take read at one element: the select between the gathered value and the fill, on the reduced mask. -/
theorem taken_select (x : FVec F S8192x4096 .f32) (r : IVec S16384 32) (i : S16384x4096.Idx) :
    taken x r i
      = Scalar.select
          (broadcastInDim S16384x4096 ![0] bcast_S16384_S16384x4096_0
            (Host.reduce IntOp.andi (inBounds (rowCol r)) (constantI S_ 1 1#1) reducesTo_S16384x1_S16384_d1 h_S_) i)
          (Host.gather gather_S8192x4096_S16384x1_S16384x4096_1_0_n_n_0_1_14096 x (rowCol r) i)
          (broadcastInDim S16384x4096 ![] bcast_S_S16384x4096 (constant S_ .f32 0x7FC00000#32) i) := rfl

/-- THE TAKE READ AT (p, q), every row a number below 8192: the table at that row, column `q`. -/
theorem taken_apply (x : FVec F S8192x4096 .f32) (r : IVec S16384 32)
    (hr : ∀ j : S16384.Idx, ∃ n, n < 8192 ∧ r j = BitVec.ofNat 32 n)
    (p : Fin 16384) (q : Fin 4096) (n : Nat) (hn : n < 8192) (hp : r (ix1 p) = BitVec.ofNat 32 n) :
    taken x r (ix2 p q) = x (ix2 ⟨n, hn⟩ q) := by
  have hmask : ∀ j : S16384.Idx,
      Host.reduce IntOp.andi (inBounds (rowCol r)) (constantI S_ 1 1#1) reducesTo_S16384x1_S16384_d1 h_S_ j = 1#1 :=
    reduce_andi_ones _ _ _ _ rfl fun i => by
      obtain ⟨p', z, rfl⟩ : ∃ (p' : Fin 16384) (z : Fin 1), i = ix2 p' z := ⟨i 0, i 1, eq_ix2 i⟩
      obtain ⟨n', hn', e'⟩ := hr (ix1 p')
      exact inBounds_ofNat _ _ n' hn' (rowCol_ofNat r p' z n' hn' e')
  rw [taken_select, maskB_apply, hmask, gather_apply]
  show x _ = x _
  refine congrArg x ?_
  funext a
  match a with
  | ⟨0, _⟩ => exact Fin.ext (by
      show min (rowCol r (ix2 p ⟨0, Nat.one_pos⟩)).toInt.toNat (8192 - 1) = n
      rw [rowCol_ofNat r p _ n hn hp, Cert.Route.toInt_toNat_ofNat n hn]; omega)
  | ⟨1, _⟩ => rfl

/-- THE REFERENCE'S TERM IS THE DISPATCH. Every slot of the sorted iota holds a position number `k < 16384`, so the
    row the take reads at slot `p` is `k / 2`, the specification's source row. -/
theorem refOut_eq_routed (x : FVec F S8192x4096 .f32) (e : IVec S8192x2 32) :
    refOut x e = Cert.Route.routed x (shapeCast S16384 e shapeCasts_S8192x2_S16384) := by
  unfold refOut
  rw [order_eq]
  generalize shapeCast S16384 e shapeCasts_S8192x2_S16384 = ids
  have ho : ∀ j : S16384.Idx, ∃ k, k < 16384 ∧ Cert.Route.order ids j = BitVec.ofNat 32 k :=
    fun j => Cert.Route.sort2_iota_snd Cert.Route.keyLt ids j
  funext i
  obtain ⟨p, q, rfl⟩ : ∃ (p : Fin 16384) (q : Fin 4096), i = ix2 p q := ⟨i 0, i 1, eq_ix2 i⟩
  show taken x (rowWords (Cert.Route.order ids)) (ix2 p q)
    = x (ix2 ⟨(Cert.Route.order ids (ix1 p)).toNat / 2 % 8192, Nat.mod_lt _ (by decide)⟩ q)
  generalize Cert.Route.order ids = o at ho ⊢
  have hr : ∀ j : S16384.Idx, ∃ n, n < 8192 ∧ rowWords o j = BitVec.ofNat 32 n := fun j => by
    obtain ⟨k, hk, ek⟩ := ho j
    exact ⟨k / 2, by omega, rowWords_ofNat o j k hk ek⟩
  obtain ⟨k, hk, ek⟩ := ho (ix1 p)
  rw [taken_apply x (rowWords o) hr p q (k / 2) (by omega) (rowWords_ofNat o _ k hk ek)]
  refine congrArg x ?_
  funext a
  match a with
  | ⟨0, _⟩ => exact Fin.ext (by
      show k / 2 = (o (ix1 p)).toNat / 2 % 8192
      rw [ek, BitVec.toNat_ofNat, Nat.mod_eq_of_lt (by omega : k < 2 ^ 32)]; omega)
  | ⟨1, _⟩ => rfl

/-! ## The run -/

/-- The arguments' buffers are written by no operation. -/
theorem arg0_eq (V : Valuation τ sig (Elt F)) :
    after (ops (F := F)) V (main_arg0 : DevRef τ sig) = V (main_arg0 : DevRef τ sig) := by
  after_results_simp

theorem arg1_eq (V : Valuation τ sig (Elt F)) :
    after (ops (F := F)) V (main_arg1 : DevRef τ sig) = V (main_arg1 : DevRef τ sig) := by
  after_results_simp

/-- From any memory with zero counters every weakly fair execution of the reference terminates with its result buffer
    at the dispatch of the hidden states by the flattened expert ids, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v3)
          = Cert.Route.routed (m ((c.tc : Thread nD τ).loc main_arg0))
              (shapeCast S16384 (m ((c.tc : Thread nD τ).loc main_arg1)) shapeCasts_S8192x2_S16384)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v3).trans ((out_eq _).trans (refOut_eq_routed _ _)),
        (h c main_arg0).trans (arg0_eq _),
        (h c main_arg1).trans (arg1_eq _)⟩)
    (run_main m ρ)

end Cert.ReferenceIdeal.RefValue

end
-- ==== Proof.lean ====
/-
  The dispatch of hidden states to experts: every token's hidden-state row is replicated once per expert it is routed
  to, and the 16384 replicas are laid out grouped by expert, stably in token order. Both programs flatten the
  [8192, 2] expert ids, sort them stably with an iota carried along, and halve the sorted iota to get, per output
  slot, the row of the hidden states to copy.

  The kernel clamps the rows into [0, 8191], hands them to a row-gathering pallas_call as a prefetched table — grid
  point `p` copies block (table[p], 0, 0) of the hidden states, seen as [8192, 1, 4096], to block (p, 0, 0) of the
  result — and drops the unit axis. The reference calls jnp.take: it wraps negative rows by 8192, gathers whole rows
  (clamped), and fills the rows that were out of range with NaN.

  The sorted iota holds position numbers whatever the ids are, so every row is `order[p] / 2 < 8192`: the clamp, the
  wrap and the fill never act, and both results are `Route.routed`: slot `p`, column `q` holds the hidden state of
  token `order[p] / 2` at column `q`. No arithmetic is done on the floats, so the finiteness of the inputs is not
  used, and the ideal pass rewrote nothing. The frames of the two kernel programs hold at every contents of the table
  whose blocks lie inside the array, which the clamp alone gives.
-/
import proofs.«415783_j54563264529075_2_alg».proof.Defs
import proofs.«415783_j54563264529075_2_alg».proof.Proof.Gen.Kernel
import proofs.«415783_j54563264529075_2_alg».proof.Proof.Gen.Kernel.Skeleton
import proofs.«415783_j54563264529075_2_alg».proof.Proof.Gen.Kernel.Launch
import proofs.«415783_j54563264529075_2_alg».proof.Proof.Gen.Kernel.Points
import proofs.«415783_j54563264529075_2_alg».proof.Proof.Gen.Kernel.Frame
import proofs.«415783_j54563264529075_2_alg».proof.Proof.Gen.KernelIdeal
import proofs.«415783_j54563264529075_2_alg».proof.Proof.Gen.KernelIdeal.Skeleton
import proofs.«415783_j54563264529075_2_alg».proof.Proof.Gen.KernelIdeal.Launch
import proofs.«415783_j54563264529075_2_alg».proof.Proof.Gen.KernelIdeal.Points
import proofs.«415783_j54563264529075_2_alg».proof.Proof.Gen.KernelIdeal.Frame
import proofs.«415783_j54563264529075_2_alg».proof.Proof.Gen.ReferenceIdeal
import proofs.«415783_j54563264529075_2_alg».proof.Proof.Gen.Pre_finite_inputs
import proofs.«415783_j54563264529075_2_alg».proof.Proof.KernelTable
import proofs.«415783_j54563264529075_2_alg».proof.Proof.KernelIdealValue
import proofs.«415783_j54563264529075_2_alg».proof.Proof.RefValue
import Idealize.ShloMosaic.Adequacy
import Idealize.ShloMosaic.Init

noncomputable section

namespace Cert.Proof

open Idealize.ShloMosaic Idealize.SL.Sem

/-- The kernel as printed runs and keeps its arguments: its table's blocks lie inside the hidden states. -/
theorem frame_k : Cert.frame_Kernel (hKernel := Cert.Kernel.Gen.facts) (hPre_finite_inputs := Cert.Pre_finite_inputs.Gen.facts) :=
  fun m ρ _ => Cert.Kernel.Gen.frame m ρ (Cert.Kernel.Table.ok m)

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ (Cert.KernelIdeal.Table.ok m)

/-- The reference runs and keeps its arguments: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.RefValue.run m ρ)

/-- Both idealized programs end with the dispatch of the hidden states by the flattened expert ids. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Route.routed (Cert.KernelIdeal.KValue.xs m c) (Cert.KernelIdeal.Table.ids m c),
    Cert.KernelIdeal.KValue.run (F := Ideal) m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
